-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16x4096 : Shape := ⟨3, ![256, 16, 4096]⟩
abbrev S512x3x4096 : Shape := ⟨3, ![512, 3, 4096]⟩
abbrev S4x4096 : Shape := ⟨2, ![4, 4096]⟩
abbrev S4096 : Shape := ⟨1, ![4096]⟩
abbrev S256 : Shape := ⟨1, ![256]⟩
abbrev S_ : Shape := ⟨0, ![]⟩

class Facts : Prop where
  bcast_S_S256x16x4096 : S_.BroadcastsInDim S256x16x4096 (![] : Fin 0 → Fin S256x16x4096.rank)
  reducesTo_S256x16x4096_S_d0_1_2 : S256x16x4096.ReducesTo [0, 1, 2] S_
  h_S_ : 0 < S_.numel
  bcast_S_S512x3x4096 : S_.BroadcastsInDim S512x3x4096 (![] : Fin 0 → Fin S512x3x4096.rank)
  reducesTo_S512x3x4096_S_d0_1_2 : S512x3x4096.ReducesTo [0, 1, 2] S_
  bcast_S_S4x4096 : S_.BroadcastsInDim S4x4096 (![] : Fin 0 → Fin S4x4096.rank)
  reducesTo_S4x4096_S_d0_1 : S4x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S256x16x4096 .f32) (main_arg1 : FVec F S512x3x4096 .f32) (main_arg2 : FVec F S4x4096 .f32) (main_arg3 : FVec F S4096 .f32) (main_arg4 : IVec S256 32) : IVec S_ 1 :=
  let main_v0 : FVec F S256x16x4096 .f32 := Host.absf main_arg0
  let main_cst : FVec F S_ .f32 := constant S_ .f32 0x7F800000#32
  let main_v1 : FVec F S256x16x4096 .f32 := broadcastInDim S256x16x4096 ![] bcast_S_S256x16x4096 main_cst
  let main_v2 : IVec S256x16x4096 1 := cmpf .olt main_v0 main_v1
  let main_c : IVec S_ 1 := constantI S_ 1 1#1
  let main_v3 : IVec S_ 1 := (fun x v => Host.reduce IntOp.andi x v reducesTo_S256x16x4096_S_d0_1_2 h_S_) main_v2 main_c
  let main_v4 : FVec F S512x3x4096 .f32 := Host.absf main_arg1
  let main_cst_0 : FVec F S_ .f32 := constant S_ .f32 0x7F800000#32
  let main_v5 : FVec F S512x3x4096 .f32 := broadcastInDim S512x3x4096 ![] bcast_S_S512x3x4096 main_cst_0
  let main_v6 : IVec S512x3x4096 1 := cmpf .olt main_v4 main_v5
  let main_c_1 : IVec S_ 1 := constantI S_ 1 1#1
  let main_v7 : IVec S_ 1 := (fun x v => Host.reduce IntOp.andi x v reducesTo_S512x3x4096_S_d0_1_2 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S256x16x4096 : Shape := ⟨3, ![256, 16, 4096]⟩
abbrev S512x3x4096 : Shape := ⟨3, ![512, 3, 4096]⟩
abbrev S4x4096 : Shape := ⟨2, ![4, 4096]⟩
abbrev S4096 : Shape := ⟨1, ![4096]⟩
abbrev S256 : Shape := ⟨1, ![256]⟩
abbrev S_ : Shape := ⟨0, ![]⟩
abbrev S256x1 : Shape := ⟨2, ![256, 1]⟩
abbrev S256x3x4096 : Shape := ⟨3, ![256, 3, 4096]⟩
abbrev S1x4096 : Shape := ⟨2, ![1, 4096]⟩
abbrev S256x16x256 : Shape := ⟨3, ![256, 16, 256]⟩
abbrev S256x3x256 : Shape := ⟨3, ![256, 3, 256]⟩
abbrev S4x256 : Shape := ⟨2, ![4, 256]⟩
abbrev S1x256 : Shape := ⟨2, ![1, 256]⟩
abbrev S256x19x256 : Shape := ⟨3, ![256, 19, 256]⟩
abbrev S1x1x256 : Shape := ⟨3, ![1, 1, 256]⟩

abbrev nBuf : Space → Nat
  | .hbm => 26
  | .vmem => 10
  | .smem => 0
  | _ => 0

abbrev bufTy : (tb : Table) → Fin (tcTables nBuf tb) → BufTy
  | .hbm, ⟨0, _⟩ => ⟨S256x16x4096, .f32⟩
  | .hbm, ⟨1, _⟩ => ⟨S512x3x4096, .f32⟩
  | .hbm, ⟨2, _⟩ => ⟨S4x4096, .f32⟩
  | .hbm, ⟨3, _⟩ => ⟨S4096, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S256x3x4096, .f32⟩
  | .hbm, ⟨14, _⟩ => ⟨S256x3x4096, .f32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256x1, .i32⟩
  | .hbm, ⟨23, _⟩ => ⟨S512x3x4096, .f32⟩
  | .hbm, ⟨24, _⟩ => ⟨S1x4096, .f32⟩
  | .hbm, ⟨25, _⟩ => ⟨S256x16x4096, .f32⟩
  | .local _ .vmem, ⟨0, _⟩ => ⟨S256x16x256, .f32⟩
  | .local _ .vmem, ⟨1, _⟩ => ⟨S256x16x256, .f32⟩
  | .local _ .vmem, ⟨2, _⟩ => ⟨S256x3x256, .f32⟩
  | .local _ .vmem, ⟨3, _⟩ => ⟨S256x3x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S256x16x256, .f32⟩
  | .local _ .vmem, ⟨9, _⟩ => ⟨S256x16x256, .f32⟩
  | _, _ => ⟨S256x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  slices_S256x16x4096_S256x3x4096_0_13_0 : S256x16x4096.Slices ![0, 13, 0] S256x3x4096
  shapeCasts_S4096_S1x4096 : S4096.ShapeCasts S1x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4x256_S4x256_0_0 : ∀ a, (![0, 0] : Fin 2 → Nat) a + S4x256.size a ≤ S4x256.size a
  h_S4x256 : 0 < S4x256.numel
  inb_S256x3x256_S256x3x256_0_0_0 : ∀ a, (![0, 0, 0] : Fin 3 → Nat) a + S256x3x256.size a ≤ S256x3x256.size a
  h_S256x3x256 : 0 < S256x3x256.numel
  shapeCasts_S256x3x256_S256x3x256 : S256x3x256.ShapeCasts S256x3x256
  inb_S256x16x256_S256x16x256_0_0_0 : ∀ a, (![0, 0, 0] : Fin 3 → Nat) a + S256x16x256.size a ≤ S256x16x256.size a
  h_S256x16x256 : 0 < S256x16x256.numel
  concatenates_S256x3x256_S256x16x256_S256x19x256_d1 : Shape.Concatenates [S256x3x256, S256x16x256] S256x19x256 1
  slices_S4x256_o0_0_S1x256 : S4x256.Slices ![0, 0] S1x256
  slices_S256x19x256_o0_0_0_S256x16x256 : S256x19x256.Slices ![0, 0, 0] S256x16x256
  shapeCasts_S1x256_S1x1x256 : S1x256.ShapeCasts S1x1x256
  broadcasts_S1x1x256_S256x16x256 : S1x1x256.Broadcasts S256x16x256
  slices_S4x256_o1_0_S1x256 : S4x256.Slices ![1, 0] S1x256
  slices_S256x19x256_o0_1_0_S256x16x256 : S256x19x256.Slices ![0, 1, 0] S256x16x256
  slices_S4x256_o2_0_S1x256 : S4x256.Slices ![2, 0] S1x256
  slices_S256x19x256_o0_2_0_S256x16x256 : S256x19x256.Slices ![0, 2, 0] S256x16x256
  slices_S4x256_o3_0_S1x256 : S4x256.Slices ![3, 0] S1x256
  slices_S256x19x256_o0_3_0_S256x16x256 : S256x19x256.Slices ![0, 3, 0] S256x16x256
  gather_S512x3x4096_S256x1_S256x3x4096_12_0_n_n_0_1_134096_wf : GatherDims.WF S512x3x4096 S256x1 S256x3x4096 [1, 2] [0] [] [0] [] 1 ![1, 3, 4096]
  scatter_S512x3x4096_S256x1_S256x3x4096_12_0_0_1_wf : ScatterDims.WF S512x3x4096 S256x1 S256x3x4096 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x256.size a ≤ S256x16x4096.size a
  hwx0_0 : ∀ i : grid0.Coords, EltTy.bits .f32 = 32 ∨ (Rect.block (s := S256x16x4096) S256x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3x256.size a ≤ S256x3x4096.size a
  hwx0_1 : ∀ i : grid0.Coords, EltTy.bits .f32 = 32 ∨ (Rect.block (s := S256x3x4096) S256x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x4096.size a
  hwx0_2 : ∀ i : grid0.Coords, EltTy.bits .f32 = 32 ∨ (Rect.block (s := S4x4096) S4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16x256.size a ≤ S256x16x4096.size a
  hwx0_4 : ∀ i : grid0.Coords, EltTy.bits .f32 = 32 ∨ (Rect.block (s := S256x16x4096) S256x16x256.size (cc0_transform_4 i) (hinb0_4 i)).WholeWords (EltTy.packing .f32)

variable [Facts₀]

def gather_S512x3x4096_S256x1_S256x3x4096_12_0_n_n_0_1_134096 : GatherDims S512x3x4096 S256x1 S256x3x4096 where
  offsetDims := [1, 2]
  collapsedSliceDims := [0]
  operandBatchingDims := []
  startIndicesBatchingDims := []
  startIndexMap := [0]
  indexVectorDim := 1
  sliceSizes := ![1, 3, 4096]
  wf := gather_S512x3x4096_S256x1_S256x3x4096_12_0_n_n_0_1_134096_wf
def scatter_S512x3x4096_S256x1_S256x3x4096_12_0_0_1 : ScatterDims S512x3x4096 S256x1 S256x3x4096 where
  updateWindowDims := [1, 2]
  insertedWindowDims := [0]
  scatterDimsToOperandDims := [0]
  indexVectorDim := 1
  wf := scatter_S512x3x4096_S256x1_S256x3x4096_12_0_0_1_wf

abbrev win0_0 : Pipeline.Window sig grid0 :=
  Pipeline.Window.ofSpec (Memref.whole main_arg0) S256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S256x16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x16x4096 : Shape := ⟨3, ![256, 16, 4096]⟩
abbrev S512x3x4096 : Shape := ⟨3, ![512, 3, 4096]⟩
abbrev S4x4096 : Shape := ⟨2, ![4, 4096]⟩
abbrev S4096 : Shape := ⟨1, ![4096]⟩
abbrev S256 : Shape := ⟨1, ![256]⟩
abbrev S_ : Shape := ⟨0, ![]⟩
abbrev S256x1 : Shape := ⟨2, ![256, 1]⟩
abbrev S256x3x4096 : Shape := ⟨3, ![256, 3, 4096]⟩
abbrev S256x19x4096 : Shape := ⟨3, ![256, 19, 4096]⟩
abbrev S1x4096 : Shape := ⟨2, ![1, 4096]⟩
abbrev S1x1x4096 : Shape := ⟨3, ![1, 1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S256x16x4096, .f32⟩
  | .hbm, ⟨1, _⟩ => ⟨S512x3x4096, .f32⟩
  | .hbm, ⟨2, _⟩ => ⟨S4x4096, .f32⟩
  | .hbm, ⟨3, _⟩ => ⟨S4096, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S256x3x4096, .f32⟩
  | .hbm, ⟨14, _⟩ => ⟨S256x19x4096, .f32⟩
  | .hbm, ⟨15, _⟩ => ⟨S256x16x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S256x16x4096, .f32⟩
  | .hbm, ⟨20, _⟩ => ⟨S256x16x4096, .f32⟩
  | .hbm, ⟨21, _⟩ => ⟨S1x1x4096, .f32⟩
  | .hbm, ⟨22, _⟩ => ⟨S256x16x4096, .f32⟩
  | .hbm, ⟨23, _⟩ => ⟨S256x16x4096, .f32⟩
  | .hbm, ⟨24, _⟩ => ⟨S256x16x4096, .f32⟩
  | .hbm, ⟨25, _⟩ => ⟨S1x4096, .f32⟩
  | .hbm, ⟨26, _⟩ => ⟨S4096, .f32⟩
  | .hbm, ⟨27, _⟩ => ⟨S1x1x4096, .f32⟩
  | .hbm, ⟨28, _⟩ => ⟨S256x16x4096, .f32⟩
  | .hbm, ⟨29, _⟩ => ⟨S256x16x4096, .f32⟩
  | .hbm, ⟨30, _⟩ => ⟨S256x16x4096, .f32⟩
  | .hbm, ⟨31, _⟩ => ⟨S256x16x4096, .f32⟩
  | .hbm, ⟨32, _⟩ => ⟨S1x4096, .f32⟩
  | .hbm, ⟨33, _⟩ => ⟨S4096, .f32⟩
  | .hbm, ⟨34, _⟩ => ⟨S1x1x4096, .f32⟩
  | .hbm, ⟨35, _⟩ => ⟨S256x16x4096, .f32⟩
  | .hbm, ⟨36, _⟩ => ⟨S256x16x4096, .f32⟩
  | .hbm, ⟨37, _⟩ => ⟨S256x16x4096, .f32⟩
  | .hbm, ⟨38, _⟩ => ⟨S256x16x4096, .f32⟩
  | .hbm, ⟨39, _⟩ => ⟨S1x4096, .f32⟩
  | .hbm, ⟨40, _⟩ => ⟨S4096, .f32⟩
  | .hbm, ⟨41, _⟩ => ⟨S1x1x4096, .f32⟩
  | .hbm, ⟨42, _⟩ => ⟨S256x16x4096, .f32⟩
  | .hbm, ⟨43, _⟩ => ⟨S256x16x4096, .f32⟩
  | .hbm, ⟨44, _⟩ => ⟨S256x16x4096, .f32⟩
  | .hbm, ⟨45, _⟩ => ⟨S256x16x4096, .f32⟩
  | .hbm, ⟨46, _⟩ => ⟨S256x16x4096, .f32⟩
  | .hbm, ⟨47, _⟩ => ⟨S_, .f32⟩
  | .hbm, ⟨48, _⟩ => ⟨S256x16x4096, .f32⟩
  | .hbm, ⟨49, _⟩ => ⟨S256x16x4096, .f32⟩
  | .hbm, ⟨50, _⟩ => ⟨S_, .f32⟩
  | .hbm, ⟨51, _⟩ => ⟨S256x16x4096, .f32⟩
  | .hbm, ⟨52, _⟩ => ⟨S256x16x4096, .f32⟩
  | .hbm, ⟨53, _⟩ => ⟨S256x16x4096, .f32⟩
  | .hbm, ⟨54, _⟩ => ⟨S256x3x4096, .f32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S512x3x4096, .f32⟩
  | _, _ => ⟨S256x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v38 : Ref sig .tc := ⟨.hbm, 53, rfl⟩
abbrev main_v39 : Ref sig .tc := ⟨.hbm, 54, rfl⟩
abbrev main_c_1 : Ref sig .tc := ⟨.hbm, 55, rfl⟩
abbrev main_v40 : Ref sig .tc := ⟨.hbm, 56, rfl⟩
abbrev main_v41 : Ref sig .tc := ⟨.hbm, 57, rfl⟩
abbrev main_c_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  concatenates_S256x3x4096_S256x16x4096_S256x19x4096_d1 : Shape.Concatenates [S256x3x4096, S256x16x4096] S256x19x4096 1
  slices_S256x19x4096_S256x16x4096_0_0_0 : S256x19x4096.Slices ![0, 0, 0] S256x16x4096
  slices_S4x4096_S1x4096_0_0 : S4x4096.Slices ![0, 0] S1x4096
  shapeCasts_S1x4096_S4096 : S1x4096.ShapeCasts S4096
  bcast_S4096_S1x1x4096_2 : S4096.BroadcastsInDim S1x1x4096 (![2] : Fin 1 → Fin S1x1x4096.rank)
  bcast_S1x1x4096_S256x16x4096_0_1_2 : S1x1x4096.BroadcastsInDim S256x16x4096 (![0, 1, 2] : Fin 3 → Fin S256x16x4096.rank)
  slices_S256x19x4096_S256x16x4096_0_1_0 : S256x19x4096.Slices ![0, 1, 0] S256x16x4096
  slices_S4x4096_S1x4096_1_0 : S4x4096.Slices ![1, 0] S1x4096
  slices_S256x19x4096_S256x16x4096_0_2_0 : S256x19x4096.Slices ![0, 2, 0] S256x16x4096
  slices_S4x4096_S1x4096_2_0 : S4x4096.Slices ![2, 0] S1x4096
  slices_S256x19x4096_S256x16x4096_0_3_0 : S256x19x4096.Slices ![0, 3, 0] S256x16x4096
  slices_S4x4096_S1x4096_3_0 : S4x4096.Slices ![3, 0] S1x4096
  bcast_S_S256x16x4096 : S_.BroadcastsInDim S256x16x4096 (![] : Fin 0 → Fin S256x16x4096.rank)
  slices_S256x19x4096_S256x3x4096_0_16_0 : S256x19x4096.Slices ![0, 16, 0] S256x3x4096
  gather_S512x3x4096_S256x1_S256x3x4096_12_0_n_n_0_1_134096_wf : GatherDims.WF S512x3x4096 S256x1 S256x3x4096 [1, 2] [0] [] [0] [] 1 ![1, 3, 4096]
  scatter_S512x3x4096_S256x1_S256x3x4096_12_0_0_1_wf : ScatterDims.WF S512x3x4096 S256x1 S256x3x4096 [1, 2] [0] [0] 1

variable [Facts₀]

def gather_S512x3x4096_S256x1_S256x3x4096_12_0_n_n_0_1_134096 : GatherDims S512x3x4096 S256x1 S256x3x4096 where
  offsetDims := [1, 2]
  collapsedSliceDims := [0]
  operandBatchingDims := []
  startIndicesBatchingDims := []
  startIndexMap := [0]
  indexVectorDim := 1
  sliceSizes := ![1, 3, 4096]
  wf := gather_S512x3x4096_S256x1_S256x3x4096_12_0_n_n_0_1_134096_wf
def scatter_S512x3x4096_S256x1_S256x3x4096_12_0_0_1 : ScatterDims S512x3x4096 S256x1 S256x3x4096 where
  updateWindowDims := [1, 2]
  insertedWindowDims := [0]
  scatterDimsToOperandDims := [0]
  indexVectorDim := 1
  wf := scatter_S512x3x4096_S256x1_S256x3x4096_12_0_0_1_wf

class Facts : Prop extends Facts₀ where

variable [Facts]
-- ==== Proof.ConvSpec.lean ====
/-
  The causal depthwise convolution with bias and SiLU, one column at a time.

  Fix a batch row and a channel. The output along the sequence axis then depends on four things only: the three
  carried state entries `st j`, the sixteen new inputs `x s`, the four tap weights `w k` and the bias `β`. The joined
  sequence is the state followed by the inputs (nineteen entries); the accumulator at position `s` is
      (((β + joined (s+0) · w 0) + joined (s+1) · w 1) + joined (s+2) · w 2) + joined (s+3) · w 3
  with the sums taken in this order, and the output is `a · logistic a` (SiLU). Nothing here needs the entries to be
  finite: both programs add and multiply the same extended reals in the same order.

  Also here: a two-piece concatenation along the middle axis of a rank-3 array read at an index is the joined column, and
  so is a unit-stride slice of it that only moves along that axis.
-/
import Idealize.ShloMosaic.PureOps.Ideal
import Idealize.ShloMosaic.Lib.ValueIdx
import Idealize.ShloMosaic.Lib.Pipeline.Value

noncomputable section

namespace Cert.ConvSpec

open Idealize.ShloMosaic Idealize.ShloMosaic.ValueIdx

/-- The state column followed by the input column: entry `j` is `st j` for `j < 3` and `x (j - 3)` from there on. -/
def joined {α : Type} (st : Fin 3 → α) (x : Fin 16 → α) (j : Fin 19) : α :=
  if h : j.val < 3 then st ⟨j.val, h⟩ else x ⟨j.val - 3, by have := j.isLt; omega⟩

/-- Bias plus four products, added from the left. -/
def acc4 (β t0 w0 t1 w1 t2 w2 t3 w3 : EReal) : EReal := (((β + t0 * w0) + t1 * w1) + t2 * w2) + t3 * w3

/-- The accumulator at sequence position `s`: the bias plus the four taps `joined (s + k) · w k`, `k = 0 … 3` in order. -/
def acc (st : Fin 3 → EReal) (x : Fin 16 → EReal) (w : Fin 4 → EReal) (β : EReal) (s : Fin 16) : EReal :=
  acc4 β (joined st x ⟨s.val + 0, by have := s.isLt; omega⟩) (w 0) (joined st x ⟨s.val + 1, by have := s.isLt; omega⟩) (w 1)
    (joined st x ⟨s.val + 2, by have := s.isLt; omega⟩) (w 2) (joined st x ⟨s.val + 3, by have := s.isLt; omega⟩) (w 3)

/-- SiLU on the extended reals: `a · 1 / (1 + e^(-a))`. -/
def silu (a : EReal) : EReal := a * Ideal.logistic a

/-- One column of the output. -/
def col (st : Fin 3 → EReal) (x : Fin 16 → EReal) (w : Fin 4 → EReal) (β : EReal) (s : Fin 16) : EReal :=
  silu (acc st x w β s)

/-- The whole output array [256, 16, 4096] from the gathered state [256, 3, 4096], the inputs [256, 16, 4096], the tap
    weights [4, 4096] and the bias [4096]: entry (b, s, d) is column (b, d) at position s. -/
def out (st : (⟨3, ![256, 3, 4096]⟩ : Shape).Idx → EReal) (x : (⟨3, ![256, 16, 4096]⟩ : Shape).Idx → EReal)
    (w : (⟨2, ![4, 4096]⟩ : Shape).Idx → EReal) (β : (⟨1, ![4096]⟩ : Shape).Idx → EReal) :
    (⟨3, ![256, 16, 4096]⟩ : Shape).Idx → EReal :=
  fun i => col (fun j => st (ix3 (i 0) j (i 2))) (fun s => x (ix3 (i 0) s (i 2))) (fun k => w (ix2 k (i 2))) (β (ix1 (i 2))) (i 1)

theorem out_ix3 (st : (⟨3, ![256, 3, 4096]⟩ : Shape).Idx → EReal) (x : (⟨3, ![256, 16, 4096]⟩ : Shape).Idx → EReal)
    (w : (⟨2, ![4, 4096]⟩ : Shape).Idx → EReal) (β : (⟨1, ![4096]⟩ : Shape).Idx → EReal) (b : Fin 256) (s : Fin 16) (d : Fin 4096) :
    out st x w β (ix3 b s d)
      = col (fun j => st (ix3 b j d)) (fun s' => x (ix3 b s' d)) (fun k => w (ix2 k d)) (β (ix1 d)) s := rfl

/-- A concatenation of a [B, 3, D] and a [B, 16, D] array along the middle axis, read at (b, j, d), is the joined column
    (b, d) at j. -/
theorem concat_joined {α : Type} {B D : Nat} (st : (⟨3, ![B, 3, D]⟩ : Shape).Idx → α) (x : (⟨3, ![B, 16, D]⟩ : Shape).Idx → α)
    (h : Shape.Concatenates [(⟨3, ![B, 3, D]⟩ : Shape), ⟨3, ![B, 16, D]⟩] ⟨3, ![B, 19, D]⟩ 1) (b : Fin B) (j : Fin 19) (d : Fin D) :
    concatenate (⟨3, ![B, 19, D]⟩ : Shape) 1 [⟨⟨3, ![B, 3, D]⟩, st⟩, ⟨⟨3, ![B, 16, D]⟩, x⟩] h (ix3 b j d)
      = joined (fun j' => st (ix3 b j' d)) (fun s => x (ix3 b s d)) j := by
  unfold joined
  by_cases hj : j.val < 3
  · rw [dif_pos hj]
    exact concatenate_pair_apply_left 1 st x h (ix3 b j d) rfl (ix3 b ⟨j.val, hj⟩ d)
      (fun a => match a with | ⟨0, _⟩ => rfl | ⟨1, _⟩ => rfl | ⟨2, _⟩ => rfl)
  · rw [dif_neg hj]
    exact concatenate_pair_apply_right 1 st x h (ix3 b j d) rfl rfl (ix3 b ⟨j.val - 3, by have := j.isLt; omega⟩ d)
      (fun a ha => match a, ha with
        | ⟨0, _⟩, _ => rfl
        | ⟨1, _⟩, ha => absurd rfl ha
        | ⟨2, _⟩, _ => rfl)
      (by show (j.val - 3) + 3 = j.val; omega)

/-- A unit-stride slice of that concatenation which moves `k` along the middle axis only, read at (b, s, d), is the joined
    column (b, d) at `s + k`. -/
theorem slice_concat_joined {α : Type} {B D : Nat} (st : (⟨3, ![B, 3, D]⟩ : Shape).Idx → α) (x : (⟨3, ![B, 16, D]⟩ : Shape).Idx → α)
    (h : Shape.Concatenates [(⟨3, ![B, 3, D]⟩ : Shape), ⟨3, ![B, 16, D]⟩] ⟨3, ![B, 19, D]⟩ 1)
    (off : Fin 3 → Nat) (k : Nat) (h0 : off 0 = 0) (h1 : off 1 = k) (h2 : off 2 = 0)
    (hs : (⟨3, ![B, 19, D]⟩ : Shape).Slices off ⟨3, ![B, 16, D]⟩) (b : Fin B) (s : Fin 16) (d : Fin D) (hk : s.val + k < 19) :
    extractStridedSlice (⟨3, ![B, 16, D]⟩ : Shape) off
        (concatenate (⟨3, ![B, 19, D]⟩ : Shape) 1 [⟨⟨3, ![B, 3, D]⟩, st⟩, ⟨⟨3, ![B, 16, D]⟩, x⟩] h) hs (ix3 b s d)
      = joined (fun j' => st (ix3 b j' d)) (fun s' => x (ix3 b s' d)) ⟨s.val + k, hk⟩ :=
  (extractStridedSlice_apply off _ hs (ix3 b s d) (ix3 b ⟨s.val + k, hk⟩ d) (fun a => match a with
    | ⟨0, _⟩ => by show b.val = off 0 + b.val; omega
    | ⟨1, _⟩ => by show s.val + k = off 1 + s.val; omega
    | ⟨2, _⟩ => by show d.val = off 2 + d.val; omega)).trans (concat_joined st x h b _ d)

end Cert.ConvSpec

end
-- ==== Proof.ConvTail.lean ====
/-
  The last three rows of the joined sequence are the last three input rows.

  The reference takes the new state as rows 16 … 18 of the concatenation (gathered state, then inputs) along the sequence
  axis; the kernel takes rows 13 … 15 of the inputs. Row `16 + r` of the joined sequence lies past the three state rows,
  so it is input row `16 + r - 3 = 13 + r`.
-/
import proofs.«428617_j8014408974840_3_alg».proof.Proof.ConvSpec

noncomputable section

namespace Cert.ConvSpec

open Idealize.ShloMosaic Idealize.ShloMosaic.ValueIdx

theorem slice_concat_tail {α : Type} {B D : Nat} (st : (⟨3, ![B, 3, D]⟩ : Shape).Idx → α) (x : (⟨3, ![B, 16, D]⟩ : Shape).Idx → α)
    (h : Shape.Concatenates [(⟨3, ![B, 3, D]⟩ : Shape), ⟨3, ![B, 16, D]⟩] ⟨3, ![B, 19, D]⟩ 1)
    (off off' : Fin 3 → Nat) (h0 : off 0 = 0) (h1 : off 1 = 16) (h2 : off 2 = 0) (h0' : off' 0 = 0) (h1' : off' 1 = 13) (h2' : off' 2 = 0)
    (hs : (⟨3, ![B, 19, D]⟩ : Shape).Slices off ⟨3, ![B, 3, D]⟩) (hs' : (⟨3, ![B, 16, D]⟩ : Shape).Slices off' ⟨3, ![B, 3, D]⟩) :
    extractStridedSlice (⟨3, ![B, 3, D]⟩ : Shape) off
        (concatenate (⟨3, ![B, 19, D]⟩ : Shape) 1 [⟨⟨3, ![B, 3, D]⟩, st⟩, ⟨⟨3, ![B, 16, D]⟩, x⟩] h) hs
      = extractStridedSlice (⟨3, ![B, 3, D]⟩ : Shape) off' x hs' := by
  funext j
  obtain ⟨b, r, d, rfl⟩ : ∃ (b : Fin B) (r : Fin 3) (d : Fin D), j = ix3 b r d := ⟨j 0, j 1, j 2, eq_ix3 j⟩
  have hr := r.isLt
  refine (extractStridedSlice_apply off _ hs (ix3 b r d) (ix3 b ⟨r.val + 16, by omega⟩ d) (fun a => match a with
    | ⟨0, _⟩ => by show b.val = off 0 + b.val; omega
    | ⟨1, _⟩ => by show r.val + 16 = off 1 + r.val; omega
    | ⟨2, _⟩ => by show d.val = off 2 + d.val; omega)).trans ?_
  refine (concat_joined st x h b _ d).trans ?_
  unfold joined
  rw [dif_neg (by show ¬ (r.val + 16 < 3); omega)]
  exact (extractStridedSlice_apply off' x hs' (ix3 b r d) (ix3 b ⟨r.val + 16 - 3, by omega⟩ d) (fun a => match a with
    | ⟨0, _⟩ => by show b.val = off' 0 + b.val; omega
    | ⟨1, _⟩ => by show r.val + 16 - 3 = off' 1 + r.val; omega
    | ⟨2, _⟩ => by show d.val = off' 2 + d.val; omega)).symm

end Cert.ConvSpec

end
-- ==== Proof.RefValue.lean ====
/-
  The reference's first result is the column function of ConvSpec.

  Read one operation at a time (the generated stage lemmas), entry (b, s, d) of the reference's result is
  `a · (1 / (1 + e^(-a)))` with `a` the bias at `d` plus, in order, the four products of the joined sequence
  (gathered state, then inputs) at `s + k` with the weight row `k` at `d`. The slices of the concatenation are the joined
  column; the weight rows and the bias go through a slice, a reshape and two broadcasts, which read entry `(k, d)` and
  entry `d`. The quotient `1 / (1 + e^(-a))` is the logistic function by its definition on the extended reals, and the
  literal 1.0 denotes 1.
-/
import proofs.«428617_j8014408974840_3_alg».proof.Proof.Gen.ReferenceIdeal.Read
import proofs.«428617_j8014408974840_3_alg».proof.Proof.ConvSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.ConvSpec

variable (x0 : (⟨S256x16x4096, .f32⟩ : BufTy).Contents (Elt Ideal)) (x1 : (⟨S512x3x4096, .f32⟩ : BufTy).Contents (Elt Ideal))
  (x2 : (⟨S4x4096, .f32⟩ : BufTy).Contents (Elt Ideal)) (x3 : (⟨S4096, .f32⟩ : BufTy).Contents (Elt Ideal))
  (x4 : (⟨S256, .i32⟩ : BufTy).Contents (Elt Ideal))

/-- The gathered state, as the reference computes it from the state pool and the indices. -/
abbrev gathered : (⟨3, ![256, 3, 4096]⟩ : Shape).Idx → EReal := val_main_v6 (F := Ideal) x1 x4

/-- The joined column (b, d) of the reference: gathered state then inputs. -/
abbrev jcol (b : Fin 256) (d : Fin 4096) : Fin 19 → EReal :=
  joined (fun j => gathered x1 x4 (ix3 b j d)) (fun s => x0 (ix3 b s d))

theorem tap0 (b : Fin 256) (s : Fin 16) (d : Fin 4096) :
    val_main_v8 (F := Ideal) x0 x1 x4 (ix3 b s d) = jcol x0 x1 x4 b d ⟨s.val + 0, by have := s.isLt; omega⟩ := by
  unfold val_main_v8 val_main_v7
  exact slice_concat_joined _ _ _ _ 0 rfl rfl rfl _ b s d _

theorem tap1 (b : Fin 256) (s : Fin 16) (d : Fin 4096) :
    val_main_v17 (F := Ideal) x0 x1 x4 (ix3 b s d) = jcol x0 x1 x4 b d ⟨s.val + 1, by have := s.isLt; omega⟩ := by
  unfold val_main_v17 val_main_v7
  exact slice_concat_joined _ _ _ _ 1 rfl rfl rfl _ b s d _

theorem tap2 (b : Fin 256) (s : Fin 16) (d : Fin 4096) :
    val_main_v24 (F := Ideal) x0 x1 x4 (ix3 b s d) = jcol x0 x1 x4 b d ⟨s.val + 2, by have := s.isLt; omega⟩ := by
  unfold val_main_v24 val_main_v7
  exact slice_concat_joined _ _ _ _ 2 rfl rfl rfl _ b s d _

theorem tap3 (b : Fin 256) (s : Fin 16) (d : Fin 4096) :
    val_main_v31 (F := Ideal) x0 x1 x4 (ix3 b s d) = jcol x0 x1 x4 b d ⟨s.val + 3, by have := s.isLt; omega⟩ := by
  unfold val_main_v31 val_main_v7
  exact slice_concat_joined _ _ _ _ 3 rfl rfl rfl _ b s d _

/-- Where the four index maps of a weight row's slice, reshape and two broadcasts send (b, s, d): to (k, d). -/
theorem wrow_idx (k : Fin 4) (b : Fin 256) (s : Fin 16) (d : Fin 4096) (f : S1x4096.Idx → S4x4096.Idx)
    (hf : ∀ i : S1x4096.Idx, (f i 0).val = k.val + (i 0).val ∧ (f i 1).val = (i 1).val) :
    f (idx_main_v10 (idx_main_v11 (idx_main_v12 (ix3 b s d)))) = ix2 k d := by
  funext a
  apply Fin.ext
  match a with
  | ⟨0, _⟩ => exact ((hf _).1).trans (by show k.val + 0 = k.val; omega)
  | ⟨1, _⟩ => exact ((hf _).2).trans (by show d.val % 4096 = d.val; have := d.isLt; omega)

theorem w0 (b : Fin 256) (s : Fin 16) (d : Fin 4096) : val_main_v12 (F := Ideal) x2 (ix3 b s d) = x2 (ix2 0 d) := by
  rw [val_main_v12_apply, val_main_v11_apply, val_main_v10_apply, val_main_v9_apply]
  exact congrArg x2 (wrow_idx 0 b s d idx_main_v9 (fun i => ⟨by show (i 0).val = 0 + (i 0).val; omega, rfl⟩))

theorem w1 (b : Fin 256) (s : Fin 16) (d : Fin 4096) : val_main_v21 (F := Ideal) x2 (ix3 b s d) = x2 (ix2 1 d) := by
  rw [val_main_v21_apply, val_main_v20_apply, val_main_v19_apply, val_main_v18_apply]
  exact congrArg x2 (wrow_idx 1 b s d idx_main_v18 (fun i => ⟨rfl, rfl⟩))

theorem w2 (b : Fin 256) (s : Fin 16) (d : Fin 4096) : val_main_v28 (F := Ideal) x2 (ix3 b s d) = x2 (ix2 2 d) := by
  rw [val_main_v28_apply, val_main_v27_apply, val_main_v26_apply, val_main_v25_apply]
  exact congrArg x2 (wrow_idx 2 b s d idx_main_v25 (fun i => ⟨rfl, rfl⟩))

theorem w3 (b : Fin 256) (s : Fin 16) (d : Fin 4096) : val_main_v35 (F := Ideal) x2 (ix3 b s d) = x2 (ix2 3 d) := by
  rw [val_main_v35_apply, val_main_v34_apply, val_main_v33_apply, val_main_v32_apply]
  exact congrArg x2 (wrow_idx 3 b s d idx_main_v32 (fun i => ⟨rfl, rfl⟩))

theorem bias (b : Fin 256) (s : Fin 16) (d : Fin 4096) : val_main_v15 (F := Ideal) x3 (ix3 b s d) = x3 (ix1 d) := by
  rw [val_main_v15_apply, val_main_v14_apply]
  exact congrArg x3 (funext fun a => match a with | ⟨0, _⟩ => rfl)

/-- The accumulator of the reference at (b, s, d) is the column's. -/
theorem acc_eq (b : Fin 256) (s : Fin 16) (d : Fin 4096) :
    val_main_v37 (F := Ideal) x0 x1 x2 x3 x4 (ix3 b s d)
      = acc (fun j => gathered x1 x4 (ix3 b j d)) (fun s' => x0 (ix3 b s' d)) (fun k => x2 (ix2 k d)) (x3 (ix1 d)) s := by
  rw [val_main_v37_apply, val_main_v36_apply, val_main_v30_apply, val_main_v29_apply, val_main_v23_apply, val_main_v22_apply,
    val_main_v16_apply, val_main_v13_apply, tap0, tap1, tap2, tap3, w0, w1, w2, w3, bias]
  rfl

/-- The reference's first result is `ConvSpec.out` of the gathered state, the inputs, the weights and the bias. -/
theorem out_eq : val_main_v38 (F := Ideal) x0 x1 x2 x3 x4 = out (gathered x1 x4) x0 x2 x3 := by
  funext i
  obtain ⟨b, s, d, rfl⟩ : ∃ (b : Fin 256) (s : Fin 16) (d : Fin 4096), i = ix3 b s d := ⟨i 0, i 1, i 2, eq_ix3 i⟩
  rw [out_ix3, val_main_v38_apply, val_main_call0_v5_apply, val_main_call0_v4_apply, val_main_call0_cst_0_apply,
    val_main_call0_v3_apply, val_main_call0_v2_apply, val_main_call0_cst_apply, val_main_call0_v1_apply,
    val_main_call0_v0_apply, acc_eq]
  simp only [col, silu, Ideal.logistic, Ideal.mulf_def, Ideal.hostDivf_def, Ideal.addf_def, Ideal.hostUnary_exp_def,
    Ideal.hostNegf_def, Ideal.negf_def, Ideal.ofBits_def, Ideal.ofBits_one_f32]

end Cert.ReferenceIdeal.RefValue

end
-- ==== Proof.KernelPayload.lean ====
/-
  The kernel body's stored value at an index is one column of ConvSpec.

  The body joins its state block [256, 3, 256] and its input block [256, 16, 256] along the sequence axis, takes the four
  windows of sixteen rows at offsets 0 … 3, multiplies window `k` by row `k` of the weight block [4, 256] (a slice, a cast
  to [1, 1, 256] and a broadcast), adds them in order onto the broadcast bias row, and applies `a · logistic a`. At
  (b, s, d) of the block this is column (b, d) of the blocks at position s.
-/
import proofs.«428617_j8014408974840_3_alg».proof.Proof.Gen.KernelIdeal.Skeleton
import proofs.«428617_j8014408974840_3_alg».proof.Proof.ConvSpec

noncomputable section

namespace Cert.KernelIdeal.Payload

open Cert.KernelIdeal Cert.KernelIdeal.Gen Idealize.ShloMosaic Idealize.ShloMosaic.ValueIdx
open Cert.ConvSpec

/-- Row `k` of a [4, 256] block, cast to [1, 1, 256] and broadcast over [256, 16, 256], read at (b, s, d), is entry (k, d). -/
theorem wrow_apply (v2 : FVec Ideal S4x256 .f32) (k : Fin 4) (off : Fin 2 → Nat) (h0 : off 0 = k.val) (h1 : off 1 = 0)
    (hs : S4x256.Slices off S1x256) (hc : S1x256.ShapeCasts S1x1x256) (hb : S1x1x256.Broadcasts S256x16x256)
    (b : Fin 256) (s : Fin 16) (d : Fin 256) :
    broadcastTo S256x16x256 (shapeCast S1x1x256 (extractStridedSlice S1x256 off v2 hs) hc) hb (ix3 b s d) = v2 (ix2 k d) := by
  refine (broadcastTo_apply _ hb (ix3 b s d) (ix3 0 0 d) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show d.val = if (256 : Nat) = 1 then 0 else d.val; rw [if_neg (by decide)])).trans ?_
  refine (shapeCast_apply _ hc (ix3 0 0 d) (ix2 0 d) (by
    rw [Shape.rowMajor_val_two, Shape.rowMajor_val_three]; show 0 * 256 + d.val = (0 * 1 + 0) * 256 + d.val; omega)).trans ?_
  exact extractStridedSlice_apply off v2 hs (ix2 0 d) (ix2 k d) (fun a => match a with
    | ⟨0, _⟩ => by show k.val = off 0 + 0; omega
    | ⟨1, _⟩ => by show d.val = off 1 + d.val; omega)

/-- A [1, 256] row cast to [1, 1, 256] and broadcast over [256, 16, 256], read at (b, s, d), is entry (0, d). -/
theorem brow_apply (v0 : FVec Ideal S1x256 .f32) (hc : S1x256.ShapeCasts S1x1x256) (hb : S1x1x256.Broadcasts S256x16x256)
    (b : Fin 256) (s : Fin 16) (d : Fin 256) :
    broadcastTo S256x16x256 (shapeCast S1x1x256 v0 hc) hb (ix3 b s d) = v0 (ix2 0 d) := by
  refine (broadcastTo_apply _ hb (ix3 b s d) (ix3 0 0 d) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show d.val = if (256 : Nat) = 1 then 0 else d.val; rw [if_neg (by decide)])).trans ?_
  exact shapeCast_apply _ hc (ix3 0 0 d) (ix2 0 d) (by
    rw [Shape.rowMajor_val_two, Shape.rowMajor_val_three]; show 0 * 256 + d.val = (0 * 1 + 0) * 256 + d.val; omega)

/-- The logistic function acts entry by entry. -/
theorem logistic_apply {s : Shape} {φ : FTy} (a : FVec Ideal s φ) (i : s.Idx) : logistic a i = Ideal.logistic (a i) := rfl

/-- The stored value at (b, s, d): column (b, d) of the loaded blocks at position s. -/
theorem pay_apply (v0 : Vec Ideal S1x256 .f32) (v2 : Vec Ideal S4x256 .f32) (v3 : Vec Ideal S256x3x256 .f32)
    (v5 : Vec Ideal S256x16x256 .f32) (b : Fin 256) (s : Fin 16) (d : Fin 256) :
    k0_pay1 (F := Ideal) v0 v2 v3 v5 (ix3 b s d)
      = col (fun j => v3 (ix3 b j d)) (fun s' => v5 (ix3 b s' d)) (fun k => v2 (ix2 k d)) (v0 (ix2 0 d)) s := by
  unfold k0_pay1
  rw [shapeCast_self v0, shapeCast_self v3]
  simp only [mulf_apply, addf_apply, logistic_apply]
  rw [brow_apply v0 _ _ b s d,
    wrow_apply v2 0 ![0, 0] rfl rfl _ _ _ b s d, wrow_apply v2 1 ![1, 0] rfl rfl _ _ _ b s d,
    wrow_apply v2 2 ![2, 0] rfl rfl _ _ _ b s d, wrow_apply v2 3 ![3, 0] rfl rfl _ _ _ b s d,
    slice_concat_joined v3 v5 _ ![0, 0, 0] 0 rfl rfl rfl _ b s d (by have := s.isLt; omega),
    slice_concat_joined v3 v5 _ ![0, 1, 0] 1 rfl rfl rfl _ b s d (by have := s.isLt; omega),
    slice_concat_joined v3 v5 _ ![0, 2, 0] 2 rfl rfl rfl _ b s d (by have := s.isLt; omega),
    slice_concat_joined v3 v5 _ ![0, 3, 0] 3 rfl rfl rfl _ b s d (by have := s.isLt; omega)]
  rfl

end Cert.KernelIdeal.Payload

end
-- ==== Proof.KernelValue.lean ====
/-
  The kernel's two results as functions of its arguments.

  The pallas_call runs over sixteen points, point `t` owning channels `256 t … 256 t + 255`. Its windows are the inputs
  (block (0, 0, t) of [256, 16, 4096]), the gathered state (block (0, 0, t) of [256, 3, 4096], an array the host prefix
  computes), the weights (block (0, t) of [4, 4096]) and the bias as a row (block (0, t) of [1, 4096], the host's reshape of
  the bias vector). What point `t` writes back is the body's stored value of those blocks, which is column by column
  `ConvSpec.col`; so it is block `t` of `ConvSpec.out` of the whole arrays. The sixteen blocks cover the output, hence
  the output array ends as `ConvSpec.out`. The second result is a buffer the host prefix wrote and no window stages: the
  region leaves it as it found it, a scatter of the last three input rows into the state pool.
-/
import proofs.«428617_j8014408974840_3_alg».proof.Proof.Gen.KernelIdeal.Value
import proofs.«428617_j8014408974840_3_alg».proof.Proof.KernelPayload
import Idealize.ShloMosaic.Lib.Pipeline.Value
import Idealize.ShloMosaic.Lib.StableHlo.Run
import Idealize.ShloMosaic.PureOps.Ideal

noncomputable section

namespace Cert.KernelIdeal.Hand

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)
open Cert.ConvSpec

variable (m : (ℓ : Loc nD τ sig) → Buf (Elt Ideal) ℓ) (ρ : Dev nD → PrngReg)

/-! ## What the host prefix leaves in the buffers the region meets -/

/-- The index column of the gather and of the scatter: an index below zero moved up by the pool size 512, as [256, 1]. -/
abbrev idxCol (x4 : (⟨S256, .i32⟩ : BufTy).Contents (Elt Ideal)) : (⟨S256x1, .i32⟩ : BufTy).Contents (Elt Ideal) :=
  broadcastInDim S256x1 ![0] bcast_S256_S256x1_0
    (select (cmpi .slt x4 (broadcastInDim S256 ![] bcast_S_S256 (constantI S_ 32 0#32)))
      (addi x4 (broadcastInDim S256 ![] bcast_S_S256 (constantI S_ 32 512#32))) x4)

/-- The bias row the region stages is the bias vector reshaped to [1, 4096]. -/
theorem V_bias (c : Dev nD) : (V m c main_v15 : S1x4096.Idx → EReal)
    = shapeCast S1x4096 (m ((c : Thread nD τ).loc main_arg3)) shapeCasts_S4096_S1x4096 := by
  dsimp only [V, hostOps0]
  after_results
  rfl

/-- Entry (0, e) of the bias row is entry e of the bias vector. -/
theorem V_bias_apply (c : Dev nD) (e : Fin 4096) :
    (V m c main_v15 : S1x4096.Idx → EReal) (ix2 0 e) = (m ((c : Thread nD τ).loc main_arg3) : S4096.Idx → EReal) (ix1 e) := by
  rw [V_bias]
  exact shapeCast_apply _ shapeCasts_S4096_S1x4096 (ix2 0 e) (ix1 e) (by
    rw [Shape.rowMajor_val_one, Shape.rowMajor_val_two]; show e.val = 0 * 4096 + e.val; omega)

/-- The state the region stages: the state pool gathered at the index column. -/
theorem V_state (c : Dev nD) : (V m c main_v6 : S256x3x4096.Idx → EReal)
    = Host.gather gather_S512x3x4096_S256x1_S256x3x4096_12_0_n_n_0_1_134096 (m ((c : Thread nD τ).loc main_arg1))
        (idxCol (m ((c : Thread nD τ).loc main_arg4))) := by
  dsimp only [V, hostOps0]
  after_results

/-- The updated pool: the last three input rows scattered into the state pool at the index column. -/
theorem V_pool (c : Dev nD) : (V m c main_v14 : S512x3x4096.Idx → EReal)
    = Host.scatter scatter_S512x3x4096_S256x1_S256x3x4096_12_0_0_1 (fun _ b => b) (m ((c : Thread nD τ).loc main_arg1))
        (idxCol (m ((c : Thread nD τ).loc main_arg4)))
        (extractStridedSlice S256x3x4096 ![0, 13, 0] (m ((c : Thread nD τ).loc main_arg0)) slices_S256x16x4096_S256x3x4096_0_13_0) := by
  dsimp only [V, hostOps0]
  after_results_simp
  rfl

/-! ## The windows' blocks as parts of the arrays -/

/-- Where each window's block sits at point `t`: at channel block `t`, at block 0 on the other axes. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 3) = 0 ∧ win0_4.index t (1 : Fin 3) = 0 ∧ win0_4.index t (2 : Fin 3) = t.val :=
  (by decide +kernel : ∀ t : Fin grid0.N, _)

theorem t_lt (t : Fin cfg0.N) : t.val < 16 := by have h := t.isLt; have hN : cfg0.N = 16 := N_0; omega

/-- The input block at point `t`: entry (b, s, d) is entry (b, s, 256 t + d) of the inputs. -/
theorem xblk_apply (c : Dev nD) (t : Fin cfg0.N) (b : Fin 256) (s : Fin 16) (d : Fin 256) (e : Fin 4096) (he : e.val = t.val * 256 + d.val) :
    (iblk m c 0 t : Vec Ideal S256x16x256 .f32) (ix3 b s d) = (m ((c : Thread nD τ).loc main_arg0) : S256x16x4096.Idx → EReal) (ix3 b s e) := by
  obtain ⟨h0, h1, h2, -⟩ := idx_facts t
  unfold iblk
  rw [View.read_apply]
  show V m c main_arg0 _ = _
  rw [V_main_arg0]
  congr 1
  funext a
  apply Fin.ext
  match a with
  | ⟨0, _⟩ => show win0_0.index t (0 : Fin 3) * 256 + 1 * b.val = b.val; rw [h0]; omega
  | ⟨1, _⟩ => show win0_0.index t (1 : Fin 3) * 16 + 1 * s.val = s.val; rw [h1]; omega
  | ⟨2, _⟩ => show win0_0.index t (2 : Fin 3) * 256 + 1 * d.val = e.val; rw [h2, he]; omega

/-- The state block at point `t`: entry (b, j, d) is entry (b, j, 256 t + d) of the gathered state. -/
theorem sblk_apply (c : Dev nD) (t : Fin cfg0.N) (b : Fin 256) (j : Fin 3) (d : Fin 256) (e : Fin 4096) (he : e.val = t.val * 256 + d.val) :
    (iblk m c 1 t : Vec Ideal S256x3x256 .f32) (ix3 b j d) = (V m c main_v6 : S256x3x4096.Idx → EReal) (ix3 b j e) := by
  obtain ⟨-, -, -, h0, h1, h2, -⟩ := idx_facts t
  unfold iblk
  rw [View.read_apply]
  show V m c main_v6 _ = _
  congr 1
  funext a
  apply Fin.ext
  match a with
  | ⟨0, _⟩ => show win0_1.index t (0 : Fin 3) * 256 + 1 * b.val = b.val; rw [h0]; omega
  | ⟨1, _⟩ => show win0_1.index t (1 : Fin 3) * 3 + 1 * j.val = j.val; rw [h1]; omega
  | ⟨2, _⟩ => show win0_1.index t (2 : Fin 3) * 256 + 1 * d.val = e.val; rw [h2, he]; omega

/-- The weight block at point `t`: entry (k, d) is entry (k, 256 t + d) of the weights. -/
theorem wblk_apply (c : Dev nD) (t : Fin cfg0.N) (k : Fin 4) (d : Fin 256) (e : Fin 4096) (he : e.val = t.val * 256 + d.val) :
    (iblk m c 2 t : Vec Ideal S4x256 .f32) (ix2 k d) = (m ((c : Thread nD τ).loc main_arg2) : S4x4096.Idx → EReal) (ix2 k e) := by
  obtain ⟨-, -, -, -, -, -, h0, h1, -⟩ := idx_facts t
  unfold iblk
  rw [View.read_apply]
  show V m c main_arg2 _ = _
  rw [V_main_arg2]
  congr 1
  funext a
  apply Fin.ext
  match a with
  | ⟨0, _⟩ => show win0_2.index t (0 : Fin 2) * 4 + 1 * k.val = k.val; rw [h0]; omega
  | ⟨1, _⟩ => show win0_2.index t (1 : Fin 2) * 256 + 1 * d.val = e.val; rw [h1, he]; omega

/-- The bias block at point `t`: entry (0, d) is entry 256 t + d of the bias vector. -/
theorem bblk_apply (c : Dev nD) (t : Fin cfg0.N) (d : Fin 256) (e : Fin 4096) (he : e.val = t.val * 256 + d.val) :
    (iblk m c 3 t : Vec Ideal S1x256 .f32) (ix2 0 d) = (m ((c : Thread nD τ).loc main_arg3) : S4096.Idx → EReal) (ix1 e) := by
  obtain ⟨-, -, -, -, -, -, -, -, h0, h1, -⟩ := idx_facts t
  rw [← V_bias_apply m c e]
  unfold iblk
  rw [View.read_apply]
  show V m c main_v15 _ = _
  congr 1
  funext a
  apply Fin.ext
  match a with
  | ⟨0, _⟩ => show win0_3.index t (0 : Fin 2) * 1 + 1 * 0 = 0; rw [h0]
  | ⟨1, _⟩ => show win0_3.index t (1 : Fin 2) * 256 + 1 * d.val = e.val; rw [h1, he]; omega

/-! ## One point's write-back, the cover, the final array -/

/-- The first result as a function of the arguments: `ConvSpec.out` of the gathered state, inputs, weights, bias. -/
abbrev result (c : Dev nD) : Buf (Elt Ideal) ((c : Thread nD τ).loc main_v16) :=
  out (V m c main_v6) (m ((c : Thread nD τ).loc main_arg0)) (m ((c : Thread nD τ).loc main_arg2)) (m ((c : Thread nD τ).loc main_arg3))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's value of blocks that are parts of the arrays at channel offset `256 q` is `ConvSpec.out` of the arrays
    there. -/
theorem pay_eq_out (st : (⟨3, ![256, 3, 4096]⟩ : Shape).Idx → EReal) (x : (⟨3, ![256, 16, 4096]⟩ : Shape).Idx → EReal)
    (w : (⟨2, ![4, 4096]⟩ : Shape).Idx → EReal) (β : (⟨1, ![4096]⟩ : Shape).Idx → EReal)
    (v0 : Vec Ideal S1x256 .f32) (v2 : Vec Ideal S4x256 .f32) (v3 : Vec Ideal S256x3x256 .f32) (v5 : Vec Ideal S256x16x256 .f32)
    (b : Fin 256) (s : Fin 16) (d : Fin 256) (e : Fin 4096)
    (h0 : v0 (ix2 0 d) = β (ix1 e)) (h2 : ∀ k : Fin 4, v2 (ix2 k d) = w (ix2 k e))
    (h3 : ∀ j : Fin 3, v3 (ix3 b j d) = st (ix3 b j e)) (h5 : ∀ s' : Fin 16, v5 (ix3 b s' d) = x (ix3 b s' e)) :
    k0_pay1 (F := Ideal) v0 v2 v3 v5 (ix3 b s d) = out st x w β (ix3 b s e) := by
  rw [Payload.pay_apply, out_ix3, h0, funext h2, funext h3, funext h5]

/-- What point `t` writes back is block `t` of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz3]
  simp only [View.ld_unit_zero (S := S1x256) hz2, View.ld_unit_zero (S := S4x256) hz2,
    View.ld_unit_zero (S := S256x3x256) hz3, View.ld_unit_zero (S := S256x16x256) hz3]
  obtain ⟨-, -, -, -, -, -, -, -, -, -, h0, h1, h2⟩ := idx_facts t
  have ht := t_lt t
  funext y
  obtain ⟨b, s, d, rfl⟩ : ∃ (b : Fin 256) (s : Fin 16) (d : Fin 256), y = ix3 b s d := ⟨y 0, y 1, y 2, eq_ix3 y⟩
  have hd := d.isLt
  have hemb : ((cfg0.win 4).blk t).view.emb (ix3 b s d) = ix3 b s ⟨t.val * 256 + d.val, by omega⟩ := by
    funext a
    apply Fin.ext
    match a with
    | ⟨0, _⟩ => show win0_4.index t (0 : Fin 3) * 256 + 1 * b.val = b.val; rw [h0]; omega
    | ⟨1, _⟩ => show win0_4.index t (1 : Fin 3) * 16 + 1 * s.val = s.val; rw [h1]; omega
    | ⟨2, _⟩ => show win0_4.index t (2 : Fin 3) * 256 + 1 * d.val = t.val * 256 + d.val; rw [h2]; omega
  show k0_pay1 (F := Ideal) (iblk m c 3 t) (iblk m c 2 t) (iblk m c 1 t) (iblk m c 0 t) (ix3 b s d)
    = result m c (((cfg0.win 4).blk t).view.emb (ix3 b s d))
  rw [hemb]
  exact pay_eq_out _ _ _ _ _ _ _ _ b s d _ (bblk_apply m c t d _ rfl) (fun k => wblk_apply m c t k d _ rfl)
    (fun j => sblk_apply m c t b j d _ rfl) (fun s' => xblk_apply m c t b s' d _ rfl)

/-- An index of the output is in point `t`'s block iff each coordinate is in the block's range on its axis. -/
theorem mem_blk (t : Fin cfg0.N) (i : S256x16x4096.Idx) :
    i ∈ ((cfg0.win 4).blk t).view.set ↔ ∀ a : Fin 3, win0_4.index t a * S256x16x256.size a ≤ (i a).val ∧ (i a).val < win0_4.index t a * S256x16x256.size a + S256x16x256.size a := by
  show i ∈ ((View.whole main_v16).slice (win0_4.rect t)).set ↔ _
  rw [View.set_slice_whole, Rect.mem_set_unit]
  exact Iff.rfl

/-- Every output index lies in the block of the point that owns its channel. -/
theorem cover (i : S256x16x4096.Idx) : ∃ t : Fin cfg0.N, (cfg0.win 4).flush t = true ∧ i ∈ ((cfg0.win 4).blk t).view.set := by
  have hi0 : (i 0).val < 256 := (i 0).isLt
  have hi1 : (i 1).val < 16 := (i 1).isLt
  have hi2 : (i 2).val < 4096 := (i 2).isLt
  have hN : cfg0.N = 16 := N_0
  let t : Fin cfg0.N := ⟨(i 2).val / 256, by rw [hN]; omega⟩
  obtain ⟨-, -, -, -, -, -, -, -, -, -, h0, h1, h2⟩ := idx_facts t
  have h2' : win0_4.index t (2 : Fin 3) = (i 2).val / 256 := h2
  refine ⟨t, flush0_4 t, ?_⟩
  rw [mem_blk]
  intro a
  match a with
  | ⟨0, _⟩ => show win0_4.index t (0 : Fin 3) * 256 ≤ (i 0).val ∧ (i 0).val < win0_4.index t (0 : Fin 3) * 256 + 256; rw [h0]; omega
  | ⟨1, _⟩ => show win0_4.index t (1 : Fin 3) * 16 ≤ (i 1).val ∧ (i 1).val < win0_4.index t (1 : Fin 3) * 16 + 16; rw [h1]; omega
  | ⟨2, _⟩ => show win0_4.index t (2 : Fin 3) * 256 ≤ (i 2).val ∧ (i 2).val < win0_4.index t (2 : Fin 3) * 256 + 256; rw [h2']; omega

/-- The output array after the run is `result`. -/
theorem final (c : Dev nD) : (dats m 0 c).arrAt 4 cfg0.N = result m c :=
  (dats m 0 c).arrAt_eq_of_cover 4 (result m c) (fun t _ => flushed_eq m c t) cover

/-- The second result as a function of the arguments. -/
abbrev pool (c : Dev nD) : Buf (Elt Ideal) ((c : Thread nD τ).loc main_v14) :=
  Host.scatter scatter_S512x3x4096_S256x1_S256x3x4096_12_0_0_1 (fun _ b => b) (m ((c : Thread nD τ).loc main_arg1))
    (idxCol (m ((c : Thread nD τ).loc main_arg4)))
    (extractStridedSlice S256x3x4096 ![0, 13, 0] (m ((c : Thread nD τ).loc main_arg0)) slices_S256x16x4096_S256x3x4096_0_13_0)

/-- The run, read: both results at their functions of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_v14) = pool m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post4 m r h c).trans (final m c),
      ((h c).2 main_v14 (Pipeline.mem_restRefs_of main_v14 (by decide) (by decide))).trans (V_pool m c),
      kept_main_arg0 m r h c,
      kept_main_arg1 m r h c,
      kept_main_arg2 m r h c,
      kept_main_arg3 m r h c,
      kept_main_arg4 m r h c⟩)
    (run_main m ρ)

end Cert.KernelIdeal.Hand

end
-- ==== Proof.lean ====
/-
  A causal depthwise convolution (four taps, bias, SiLU) over [256, 16, 4096] with a carried state pool: the Pallas
  kernel against the jnp reference, equal over the extended reals.

  Both programs gather the state rows at the same wrapped indices, join them in front of the inputs along the sequence
  axis, and compute per batch row and channel
      a(s) = (((bias + joined (s+0) · w 0) + joined (s+1) · w 1) + joined (s+2) · w 2) + joined (s+3) · w 3,
      out(s) = a(s) · logistic (a(s)),
  the sums in the same order on both sides (ConvSpec). The kernel does it channel block by channel block over a grid of
  sixteen points (KernelPayload: the stored value at an index is the column function; KernelValue: each point writes its
  block of the whole-array function, the blocks cover the output); the reference does it on whole arrays, with the
  logistic spelt as `1 / (1 + e^(-a))`, which is the same function on every extended real (RefValue). The second result,
  the updated state pool, is on both sides a scatter of three input rows into the pool at the same indices: rows 13 … 15 of
  the inputs in the kernel, rows 16 … 18 of the joined sequence in the reference, which are the same rows (ConvTail).
  No law used here needs finite entries, so the precondition is not opened.

  The frames of the two kernel programs are the generated ones; the reference's frame is its generated run with the
  results dropped; the idealization rewrote no operation, so nothing is owed for it.
-/
import proofs.«428617_j8014408974840_3_alg».proof.Defs
import proofs.«428617_j8014408974840_3_alg».proof.Proof.Gen.Kernel
import proofs.«428617_j8014408974840_3_alg».proof.Proof.Gen.Kernel.Skeleton
import proofs.«428617_j8014408974840_3_alg».proof.Proof.Gen.Kernel.Launch
import proofs.«428617_j8014408974840_3_alg».proof.Proof.Gen.Kernel.Points
import proofs.«428617_j8014408974840_3_alg».proof.Proof.Gen.Kernel.Frame
import proofs.«428617_j8014408974840_3_alg».proof.Proof.Gen.KernelIdeal
import proofs.«428617_j8014408974840_3_alg».proof.Proof.Gen.KernelIdeal.Skeleton
import proofs.«428617_j8014408974840_3_alg».proof.Proof.Gen.KernelIdeal.Launch
import proofs.«428617_j8014408974840_3_alg».proof.Proof.Gen.KernelIdeal.Points
import proofs.«428617_j8014408974840_3_alg».proof.Proof.Gen.KernelIdeal.Frame
import proofs.«428617_j8014408974840_3_alg».proof.Proof.Gen.ReferenceIdeal
import proofs.«428617_j8014408974840_3_alg».proof.Proof.Gen.Pre_finite_inputs
import proofs.«428617_j8014408974840_3_alg».proof.Proof.Gen.KernelIdeal.Value
import proofs.«428617_j8014408974840_3_alg».proof.Proof.Gen.ReferenceIdeal.Run
import proofs.«428617_j8014408974840_3_alg».proof.Proof.Gen.ReferenceIdeal.Read
import proofs.«428617_j8014408974840_3_alg».proof.Proof.ConvSpec
import proofs.«428617_j8014408974840_3_alg».proof.Proof.ConvTail
import proofs.«428617_j8014408974840_3_alg».proof.Proof.RefValue
import proofs.«428617_j8014408974840_3_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves its arguments as they were. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The state both programs feed the convolution: the kernel's host prefix and the reference gather the same rows. -/
theorem gathered_eq (m : (ℓ : Loc Cert.KernelIdeal.nD Cert.KernelIdeal.τ Cert.KernelIdeal.sig) → Buf (Elt Ideal) ℓ)
    (c : Dev Cert.KernelIdeal.nD) :
    Cert.ReferenceIdeal.RefValue.gathered
        (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
      = Cert.KernelIdeal.Gen.V m c Cert.KernelIdeal.main_v6 := by
  rw [Cert.KernelIdeal.Hand.V_state]
  rfl

/-- From memories that agree on the five arguments both programs end with the same two results: the convolution's output
    as `ConvSpec.out` of the gathered state, inputs, weights and bias, and the state pool with the last three input rows
    scattered in. -/
theorem algebraic : Cert.algebraic_KernelIdeal_ReferenceIdeal := by
  intro m ρ m' ρ' _ hagree
  refine ⟨fun c => Cert.KernelIdeal.Hand.result m c, fun c => Cert.KernelIdeal.Hand.pool m c,
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, Cert.ReferenceIdeal.RefValue.out_eq, (hagree c).1, (hagree c).2.1,
      (hagree c).2.2.1, (hagree c).2.2.2.1, (hagree c).2.2.2.2, gathered_eq m c]
  · rw [(hagree c).1, (hagree c).2.1, (hagree c).2.2.2.2,
      Cert.ConvSpec.slice_concat_tail _ _ _ ![0, 16, 0] ![0, 13, 0] rfl rfl rfl rfl rfl rfl _
        Cert.KernelIdeal.Gen.slices_S256x16x4096_S256x3x4096_0_13_0]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
